-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64 .f32) (main_arg7 : FVec F S64x32 .f32) (main_arg8 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) (main_arg7 : FVec F S64x32 .f32) (main_arg8 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 41
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S1x32, .f32⟩
  | .hbm, ⟨40, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v9) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S100000x32, .f32⟩
  | .hbm, ⟨50, _⟩ => ⟨S1x32, .f32⟩
  | .hbm, ⟨51, _⟩ => ⟨S100000x32, .f32⟩
  | .hbm, ⟨52, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Spec.lean ====
/-
  The mathematics both programs compute, over the extended reals.

  A dense layer on a row-major matrix: `affine x w b` at (p, q) is the sum over k of x(p,k) · w(k,q), plus b(q);
  `relu y` is the entrywise maximum with zero. The kernel computes a layer block of rows by block of rows, from operands
  it first rounds to bf16 (a change of format, the identity on the extended reals), with a matrix product into a zero
  accumulator and the bias row broadcast down the rows; the host computes it on the whole matrix with a general
  product and the bias broadcast through a [1, C] row. Read at an entry both are the same sum (`kernel_affine`,
  `host_affine`), and both rectifiers are the same maximum (`kernel_relu`, `host_relu`).

  Between the layers both programs aggregate node features along the edges by the same host operations — wrap the
  negative source indices, gather the source rows, scatter-add them into zeros at the destination rows. That chain is
  kept as ONE function `agg` of the feature matrix and the two index vectors, never opened: the two programs apply it
  to equal matrices. `net` is the whole network: two aggregated rectified layers and a final affine layer.
-/
import Idealize.ShloMosaic.PureOps.Ideal.Laws
import Idealize.ShloMosaic.Lib.ValueIdx
import Idealize.ShloMosaic.Lib.Pipeline.Value
import proofs.«163123_j35021163331781_1_alg».proof.Proof.LibPlainDot

noncomputable section

namespace Cert.Gcn

open Idealize.ShloMosaic Idealize.ShloMosaic.ValueIdx

variable {R K C : ℕ}

/-- The dense layer x · w + b, entry by entry. -/
def affine (x : FVec Ideal ⟨2, ![R, K]⟩ .f32) (w : FVec Ideal ⟨2, ![K, C]⟩ .f32) (b : FVec Ideal ⟨1, ![C]⟩ .f32) :
    FVec Ideal ⟨2, ![R, C]⟩ .f32 :=
  fun j => (∑ k : Fin K, x (ix2 (j 0) k) * w (ix2 k (j 1))) + b (ix1 (j 1))

/-- The rectifier: the entrywise maximum with the zero word's value. -/
def relu {s : Shape} (y : FVec Ideal s .f32) : FVec Ideal s .f32 :=
  fun j => max (y j) (Ideal.ofBits .f32 0x00000000#32)

theorem affine_apply (x : FVec Ideal ⟨2, ![R, K]⟩ .f32) (w : FVec Ideal ⟨2, ![K, C]⟩ .f32) (b : FVec Ideal ⟨1, ![C]⟩ .f32)
    (p : Fin R) (q : Fin C) : affine x w b (ix2 p q) = (∑ k : Fin K, x (ix2 p k) * w (ix2 k q)) + b (ix1 q) := rfl

/-- The kernel's layer on a block: operands rounded to bf16, a matrix product into zeros, the [1, C] bias row (whose
    entries are those of the bias vector `b`) broadcast down the rows. -/
theorem kernel_affine (d : DotDims ⟨2, ![R, K]⟩ ⟨2, ![K, C]⟩ ⟨2, ![R, C]⟩) (hd : PlainDot.IsPlain d)
    (x : FVec Ideal ⟨2, ![R, K]⟩ .f32) (w : FVec Ideal ⟨2, ![K, C]⟩ .f32) (b2 : FVec Ideal ⟨2, ![1, C]⟩ .f32)
    (b : FVec Ideal ⟨1, ![C]⟩ .f32) (hb : ∀ q : Fin C, b2 (ix2 0 q) = b (ix1 q))
    (hx : (⟨2, ![R, K]⟩ : Shape).ShapeCasts ⟨2, ![R, K]⟩) (hb2 : (⟨2, ![1, C]⟩ : Shape).ShapeCasts ⟨2, ![1, C]⟩)
    (hbc : (⟨2, ![1, C]⟩ : Shape).Broadcasts ⟨2, ![R, C]⟩) (ht : FTy.bits .bf16 < FTy.bits .f32) :
    addf (matmul d none (truncf .bf16 (shapeCast ⟨2, ![R, K]⟩ x hx) ht) (truncf .bf16 w ht) (constant ⟨2, ![R, C]⟩ .f32 0x00000000#32))
        (broadcastTo ⟨2, ![R, C]⟩ (shapeCast ⟨2, ![1, C]⟩ b2 hb2) hbc)
      = affine x w b := by
  funext j
  obtain ⟨p, q, rfl⟩ : ∃ (p : Fin R) (q : Fin C), j = ix2 p q := ⟨j 0, j 1, eq_ix2 j⟩
  rw [affine_apply, shapeCast_self, shapeCast_self]
  show FloatOps.matmul d none (truncf .bf16 x ht) (truncf .bf16 w ht) (constant ⟨2, ![R, C]⟩ .f32 0x00000000#32) (ix2 p q)
      + broadcastTo ⟨2, ![R, C]⟩ b2 hbc (ix2 p q) = _
  rw [PlainDot.matmul_zero_apply hd none _ _ p q]
  rw [broadcastTo_apply b2 hbc (ix2 p q) (ix2 0 q) (fun a => by
    match a with
    | ⟨0, _⟩ => show (0 : ℕ) = if (1 : ℕ) = 1 then 0 else _; rw [if_pos rfl]
    | ⟨1, _⟩ =>
      show q.val = if C = 1 then 0 else q.val
      split
      · have := q.isLt; omega
      · rfl), hb q]
  rfl

/-- The host's layer on the whole matrix: a general product, the bias broadcast through a [1, C] row. -/
theorem host_affine (d : DotDims ⟨2, ![R, K]⟩ ⟨2, ![K, C]⟩ ⟨2, ![R, C]⟩) (hd : PlainDot.IsPlain d)
    (x : FVec Ideal ⟨2, ![R, K]⟩ .f32) (w : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1]) :
    addf (Host.dotGeneral d none x w) (broadcastInDim ⟨2, ![R, C]⟩ ![0, 1] h2 (broadcastInDim ⟨2, ![1, C]⟩ ![1] h1 b))
      = affine x w b := by
  funext j
  obtain ⟨p, q, rfl⟩ : ∃ (p : Fin R) (q : Fin C), j = ix2 p q := ⟨j 0, j 1, eq_ix2 j⟩
  rw [affine_apply]
  simp only [Host.dotGeneral]
  show FloatOps.dotGeneral d none _ x w (ix2 p q) + broadcastInDim ⟨2, ![R, C]⟩ ![0, 1] h2 (broadcastInDim ⟨2, ![1, C]⟩ ![1] h1 b) (ix2 p q) = _
  rw [PlainDot.dotGeneral_apply hd none _ x w p q]
  rw [broadcastInDim_apply ![0, 1] h2 _ (ix2 p q) (ix2 0 q) (fun a => by
    match a with
    | ⟨0, _⟩ => show (0 : ℕ) = if (1 : ℕ) = 1 then 0 else _; rw [if_pos rfl]
    | ⟨1, _⟩ =>
      show q.val = if C = 1 then 0 else q.val
      split
      · have := q.isLt; omega
      · rfl)]
  rw [broadcastInDim_apply ![1] h1 b (ix2 0 q) (ix1 q) (fun a => by
    match a with
    | ⟨0, _⟩ =>
      show q.val = if C = 1 then 0 else q.val
      split
      · have := q.isLt; omega
      · rfl)]

/-- The kernel's rectifier: the maximum with the splat of the zero word. -/
theorem kernel_relu {s : Shape} (y : FVec Ideal s .f32) :
    maximumf y (broadcast s (Scalar.ofBits .f32 0x00000000#32)) = relu y := rfl

/-- The host's rectifier: the maximum with the zero constant broadcast to the shape. -/
theorem host_relu {s : Shape} (y : FVec Ideal s .f32) (dims : Fin (⟨0, ![]⟩ : Shape).rank → Fin s.rank)
    (h0 : (⟨0, ![]⟩ : Shape).BroadcastsInDim s dims) :
    maximumf y (broadcastInDim s dims h0 (constant ⟨0, ![]⟩ .f32 0x00000000#32)) = relu y := by
  funext j
  show max (y j) (broadcastInDim s dims h0 (constant ⟨0, ![]⟩ .f32 0x00000000#32) j) = _
  rw [broadcastInDim_apply dims h0 _ j ix0 (fun a => a.elim0)]
  rfl

/-! ## The aggregation along the edges, and the network -/

abbrev SNode : Shape := ⟨2, ![100000, 64]⟩
abbrev SEdge : Shape := ⟨1, ![1600000]⟩
abbrev SEdge1 : Shape := ⟨2, ![1600000, 1]⟩
abbrev SEdgeF : Shape := ⟨2, ![1600000, 64]⟩
abbrev SUnit : Shape := ⟨0, ![]⟩

/-- One message-passing step, as the host operations both programs print: source indices below zero are wrapped by
    the node count, the source rows are gathered, and the gathered rows are scatter-added into a zero matrix at the
    destination rows. Parametrised by the dimension-number records and the shape facts the operations cite. -/
def agg (gd : GatherDims SNode SEdge1 SEdgeF) (sd : ScatterDims SNode SEdge1 SEdgeF)
    (h0 : SUnit.BroadcastsInDim SEdge (![] : Fin 0 → Fin SEdge.rank))
    (h1 : SEdge.BroadcastsInDim SEdge1 (![0] : Fin 1 → Fin SEdge1.rank))
    (h2 : SUnit.BroadcastsInDim SNode (![] : Fin 0 → Fin SNode.rank))
    (x : FVec Ideal SNode .f32) (src dst : IVec SEdge 32) : FVec Ideal SNode .f32 :=
  Host.scatterAdd sd (broadcastInDim SNode ![] h2 (constant SUnit .f32 0x00000000#32)) (broadcastInDim SEdge1 ![0] h1 dst)
    (Host.gather gd x (broadcastInDim SEdge1 ![0] h1
      (select (cmpi .slt src (broadcastInDim SEdge ![] h0 (constantI SUnit 32 0#32)))
        (addi src (broadcastInDim SEdge ![] h0 (constantI SUnit 32 100000#32))) src)))

/-- The whole network: two message-passing steps, each followed by a rectified dense layer, then a dense layer. -/
def net (gd : GatherDims SNode SEdge1 SEdgeF) (sd : ScatterDims SNode SEdge1 SEdgeF)
    (h0 : SUnit.BroadcastsInDim SEdge (![] : Fin 0 → Fin SEdge.rank))
    (h1 : SEdge.BroadcastsInDim SEdge1 (![0] : Fin 1 → Fin SEdge1.rank))
    (h2 : SUnit.BroadcastsInDim SNode (![] : Fin 0 → Fin SNode.rank))
    (x : FVec Ideal SNode .f32) (src dst : IVec SEdge 32)
    (W1 : FVec Ideal ⟨2, ![64, 64]⟩ .f32) (b1 : FVec Ideal ⟨1, ![64]⟩ .f32)
    (W2 : FVec Ideal ⟨2, ![64, 64]⟩ .f32) (b2 : FVec Ideal ⟨1, ![64]⟩ .f32)
    (Wfc : FVec Ideal ⟨2, ![64, 32]⟩ .f32) (bfc : FVec Ideal ⟨1, ![32]⟩ .f32) : FVec Ideal ⟨2, ![100000, 32]⟩ .f32 :=
  affine (relu (affine (agg gd sd h0 h1 h2 (relu (affine (agg gd sd h0 h1 h2 x src dst) W1 b1)) src dst) W2 b2)) Wfc bfc

/-- A bias vector reshaped to a [1, C] row, read at (0, q), is its entry q. -/
theorem reshape_row (x : FVec Ideal ⟨1, ![C]⟩ .f32) (h : (⟨1, ![C]⟩ : Shape).ShapeCasts ⟨2, ![1, C]⟩) (q : Fin C) :
    shapeCast ⟨2, ![1, C]⟩ x h (ix2 0 q) = x (ix1 q) := by
  refine (shapeCast_addUnit_apply ![C] x h (ix2 0 q)).trans (congrArg x ?_)
  funext a
  match a with
  | ⟨0, _⟩ => rfl

end Cert.Gcn

end
-- ==== Proof.Layer0.lean ====
/-
  The first layer's region: the array the pipeline leaves is the rectified dense layer of the arrays the region finds.

  The region walks ten blocks of 10000 rows. At point t the body reads rows 10000·t … 10000·t + 9999 of the feature
  matrix, the whole weight matrix and the whole [1, 64] bias row, and stores the layer of that block; the write-back puts
  it at the same rows of the result. A row of a dense layer depends on the same row of the input only, so the block the
  body stores is the block of the whole matrix's layer, and the ten blocks tile the result.
-/
import proofs.«163123_j35021163331781_1_alg».proof.Proof.Gen.KernelIdeal.Frame
import proofs.«163123_j35021163331781_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's product contracts the block's columns with the weight's rows. -/
theorem dot_plain : PlainDot.IsPlain dot_S10000x64_S64x64_S10000x64_1_0_0_1_n_n := ⟨rfl, rfl, rfl, rfl, rfl, rfl⟩

/-- What the body stores, from the three blocks it loads: the rectified layer of the row block. -/
theorem pay_eq (x0 : Vec Ideal S10000x64 .f32) (x1 : Vec Ideal S64x64 .f32) (x2 : Vec Ideal S1x64 .f32)
    (b : FVec Ideal ⟨1, ![64]⟩ .f32) (hb : ∀ q : Fin 64, x2 (ix2 0 q) = b (ix1 q)) :
    k0_pay1 (F := Ideal) x0 x1 x2 = relu (affine x0 x1 b) := by
  unfold k0_pay1
  exact (congrArg (fun y => maximumf y _) (kernel_affine _ dot_plain x0 x1 x2 b hb _ _ _ _)).trans (kernel_relu _)

/-- The index maps over the grid: the feature window and the result window sit at block row t, column block 0; the
    weight and bias windows at block (0, 0). -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every block row of the result is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- WHAT POINT t WRITES BACK is block t of the rectified layer of the arrays the region finds. -/
theorem flushed_eq (c : Dev nD) (b : FVec Ideal ⟨1, ![64]⟩ .f32)
    (hb : ∀ q : Fin 64, (V c main_v10 : S1x64.Idx → Elt Ideal .f32) (ix2 0 q) = b (ix1 q)) (t : Fin cfg0.N) :
    (dat0 V c).flushed 3 t = ((cfg0.win 3).blk t).view.read (Elt Ideal)
      (relu (affine (V c main_v9 : S100000x64.Idx → Elt Ideal .f32) (V c main_arg3 : S64x64.Idx → Elt Ideal .f32) b)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts t
  have hb' : ∀ q : Fin 64, (iblk0 V c 2 t : Vec Ideal S1x64 .f32) (ix2 0 q) = b (ix1 q) := fun q => by
    unfold iblk0
    rw [View.read_apply]
    refine (congrArg (V c main_v10 : S1x64.Idx → Elt Ideal .f32) ?_).trans (hb q)
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [pay_eq (iblk0 V c 0 t) (iblk0 V c 1 t) (iblk0 V c 2 t) b hb']
  funext j
  show relu (affine (iblk0 V c 0 t : Vec Ideal S10000x64 .f32) (iblk0 V c 1 t : Vec Ideal S64x64 .f32) b) j
    = relu (affine (V c main_v9 : S100000x64.Idx → Elt Ideal .f32) (V c main_arg3 : S64x64.Idx → Elt Ideal .f32) b) (((cfg0.win 3).blk t).view.emb j)
  unfold relu affine
  dsimp only
  have hx : ∀ k : Fin 64, (iblk0 V c 0 t : Vec Ideal S10000x64 .f32) (ix2 (j 0) k)
      = (V c main_v9 : S100000x64.Idx → Elt Ideal .f32) (ix2 (((cfg0.win 3).blk t).view.emb j 0) k) := fun k => by
    unfold iblk0
    rw [View.read_apply]
    refine congrArg (V c main_v9 : S100000x64.Idx → Elt Ideal .f32) ?_
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  have hw : ∀ k : Fin 64, (iblk0 V c 1 t : Vec Ideal S64x64 .f32) (ix2 k (j 1))
      = (V c main_arg3 : S64x64.Idx → Elt Ideal .f32) (ix2 k (((cfg0.win 3).blk t).view.emb j 1)) := fun k => by
    unfold iblk0
    rw [View.read_apply]
    refine congrArg (V c main_arg3 : S64x64.Idx → Elt Ideal .f32) ?_
    funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have hj1 : (ix1 (j 1) : (⟨1, ![64]⟩ : Shape).Idx) = ix1 (((cfg0.win 3).blk t).view.emb j 1) :=
    funext fun a => Fin.ext (by
      match a with
      | ⟨0, _⟩ => show (j 1).val = win0_3.index t (1 : Fin 2) * 64 + 1 * (j 1).val; omega)
  refine congrArg (fun z => max z _) (congr (congrArg HAdd.hAdd (Finset.sum_congr rfl fun k _ => ?_)) ?_)
  · rw [hx k, hw k]
  · exact congrArg b hj1

/-- An index of the result is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v11).slice (win0_3.rect t)).set ↔ _
  rw [View.set_slice_whole, Rect.mem_set_unit]
  exact Iff.rfl

/-- The ten row blocks tile the result: row r is in the block of point r / 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE RESULT ARRAY after the region: the rectified dense layer of the feature, weight and bias arrays the region finds. -/
theorem final (c : Dev nD) (b : FVec Ideal ⟨1, ![64]⟩ .f32)
    (hb : ∀ q : Fin 64, (V c main_v10 : S1x64.Idx → Elt Ideal .f32) (ix2 0 q) = b (ix1 q)) :
    (dat0 V c).arrAt 3 cfg0.N
      = relu (affine (V c main_v9 : S100000x64.Idx → Elt Ideal .f32) (V c main_arg3 : S64x64.Idx → Elt Ideal .f32) b) :=
  (dat0 V c).arrAt_eq_of_cover 3 _ (fun t _ => flushed_eq V c b hb t) cover

end Cert.KernelIdeal.Layer0

end
-- ==== Proof.Layer1.lean ====
/-
  The second layer's region: the array the pipeline leaves is the rectified dense layer of the arrays the region finds.

  The region walks ten blocks of 10000 rows. At point t the body reads rows 10000·t … 10000·t + 9999 of the feature
  matrix, the whole weight matrix and the whole [1, 64] bias row, and stores the layer of that block; the write-back puts
  it at the same rows of the result. A row of a dense layer depends on the same row of the input only, so the block the
  body stores is the block of the whole matrix's layer, and the ten blocks tile the result.
-/
import proofs.«163123_j35021163331781_1_alg».proof.Proof.Gen.KernelIdeal.Frame
import proofs.«163123_j35021163331781_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's product contracts the block's columns with the weight's rows. -/
theorem dot_plain : PlainDot.IsPlain dot_S10000x64_S64x64_S10000x64_1_0_0_1_n_n := ⟨rfl, rfl, rfl, rfl, rfl, rfl⟩

/-- What the body stores, from the three blocks it loads: the rectified layer of the row block. -/
theorem pay_eq (x0 : Vec Ideal S10000x64 .f32) (x1 : Vec Ideal S64x64 .f32) (x2 : Vec Ideal S1x64 .f32)
    (b : FVec Ideal ⟨1, ![64]⟩ .f32) (hb : ∀ q : Fin 64, x2 (ix2 0 q) = b (ix1 q)) :
    k1_pay1 (F := Ideal) x0 x1 x2 = relu (affine x0 x1 b) := by
  unfold k1_pay1
  exact (congrArg (fun y => maximumf y _) (kernel_affine _ dot_plain x0 x1 x2 b hb _ _ _ _)).trans (kernel_relu _)

/-- The index maps over the grid: the feature window and the result window sit at block row t, column block 0; the
    weight and bias windows at block (0, 0). -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every block row of the result is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- WHAT POINT t WRITES BACK is block t of the rectified layer of the arrays the region finds. -/
theorem flushed_eq (c : Dev nD) (b : FVec Ideal ⟨1, ![64]⟩ .f32)
    (hb : ∀ q : Fin 64, (V c main_v22 : S1x64.Idx → Elt Ideal .f32) (ix2 0 q) = b (ix1 q)) (t : Fin cfg1.N) :
    (dat1 V c).flushed 3 t = ((cfg1.win 3).blk t).view.read (Elt Ideal)
      (relu (affine (V c main_v21 : S100000x64.Idx → Elt Ideal .f32) (V c main_arg5 : S64x64.Idx → Elt Ideal .f32) b)) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts t
  have hb' : ∀ q : Fin 64, (iblk1 V c 2 t : Vec Ideal S1x64 .f32) (ix2 0 q) = b (ix1 q) := fun q => by
    unfold iblk1
    rw [View.read_apply]
    refine (congrArg (V c main_v22 : S1x64.Idx → Elt Ideal .f32) ?_).trans (hb q)
    funext a; apply Fin.ext
    match a with
    | ⟨0, _⟩ => show win1_2.index t (0 : Fin 2) * 1 + 1 * 0 = 0; omega
    | ⟨1, _⟩ => show win1_2.index t (1 : Fin 2) * 64 + 1 * q.val = q.val; omega
  rw [pay_eq (iblk1 V c 0 t) (iblk1 V c 1 t) (iblk1 V c 2 t) b hb']
  funext j
  show relu (affine (iblk1 V c 0 t : Vec Ideal S10000x64 .f32) (iblk1 V c 1 t : Vec Ideal S64x64 .f32) b) j
    = relu (affine (V c main_v21 : S100000x64.Idx → Elt Ideal .f32) (V c main_arg5 : S64x64.Idx → Elt Ideal .f32) b) (((cfg1.win 3).blk t).view.emb j)
  unfold relu affine
  dsimp only
  have hx : ∀ k : Fin 64, (iblk1 V c 0 t : Vec Ideal S10000x64 .f32) (ix2 (j 0) k)
      = (V c main_v21 : S100000x64.Idx → Elt Ideal .f32) (ix2 (((cfg1.win 3).blk t).view.emb j 0) k) := fun k => by
    unfold iblk1
    rw [View.read_apply]
    refine congrArg (V c main_v21 : S100000x64.Idx → Elt Ideal .f32) ?_
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have hw : ∀ k : Fin 64, (iblk1 V c 1 t : Vec Ideal S64x64 .f32) (ix2 k (j 1))
      = (V c main_arg5 : S64x64.Idx → Elt Ideal .f32) (ix2 k (((cfg1.win 3).blk t).view.emb j 1)) := fun k => by
    unfold iblk1
    rw [View.read_apply]
    refine congrArg (V c main_arg5 : S64x64.Idx → Elt Ideal .f32) ?_
    funext a; apply Fin.ext
    match a with
    | ⟨0, _⟩ => show win1_1.index t (0 : Fin 2) * 64 + 1 * k.val = k.val; omega
    | ⟨1, _⟩ => show win1_1.index t (1 : Fin 2) * 64 + 1 * (j 1).val = win1_3.index t (1 : Fin 2) * 64 + 1 * (j 1).val; omega
  have hj1 : (ix1 (j 1) : (⟨1, ![64]⟩ : Shape).Idx) = ix1 (((cfg1.win 3).blk t).view.emb j 1) :=
    funext fun a => Fin.ext (by
      match a with
      | ⟨0, _⟩ => show (j 1).val = win1_3.index t (1 : Fin 2) * 64 + 1 * (j 1).val; omega)
  refine congrArg (fun z => max z _) (congr (congrArg HAdd.hAdd (Finset.sum_congr rfl fun k _ => ?_)) ?_)
  · rw [hx k, hw k]
  · exact congrArg b hj1

/-- An index of the result is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v23).slice (win1_3.rect t)).set ↔ _
  rw [View.set_slice_whole, Rect.mem_set_unit]
  exact Iff.rfl

/-- The ten row blocks tile the result: row r is in the block of point r / 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE RESULT ARRAY after the region: the rectified dense layer of the feature, weight and bias arrays the region finds. -/
theorem final (c : Dev nD) (b : FVec Ideal ⟨1, ![64]⟩ .f32)
    (hb : ∀ q : Fin 64, (V c main_v22 : S1x64.Idx → Elt Ideal .f32) (ix2 0 q) = b (ix1 q)) :
    (dat1 V c).arrAt 3 cfg1.N
      = relu (affine (V c main_v21 : S100000x64.Idx → Elt Ideal .f32) (V c main_arg5 : S64x64.Idx → Elt Ideal .f32) b) :=
  (dat1 V c).arrAt_eq_of_cover 3 _ (fun t _ => flushed_eq V c b hb t) cover

end Cert.KernelIdeal.Layer1

end
-- ==== Proof.Layer2.lean ====
/-
  The output layer's region: the array the pipeline leaves is the dense layer (no rectifier) of the arrays the region
  finds.

  Ten blocks of 10000 rows again. At point t the body reads rows 10000·t … 10000·t + 9999 of the hidden features, the
  whole [64, 32] weight matrix and the whole [1, 32] bias row, and stores that block's 32 logits per row; the write-back
  puts it at the same rows of the result. The block the body stores is the block of the whole matrix's layer, and the ten
  blocks tile the result.
-/
import proofs.«163123_j35021163331781_1_alg».proof.Proof.Gen.KernelIdeal.Frame
import proofs.«163123_j35021163331781_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's product contracts the block's columns with the weight's rows. -/
theorem dot_plain : PlainDot.IsPlain dot_S10000x64_S64x32_S10000x32_1_0_0_1_n_n := ⟨rfl, rfl, rfl, rfl, rfl, rfl⟩

/-- What the body stores, from the three blocks it loads: the dense layer of the row block. -/
theorem pay_eq (x0 : Vec Ideal S10000x64 .f32) (x1 : Vec Ideal S64x32 .f32) (x2 : Vec Ideal S1x32 .f32)
    (b : FVec Ideal ⟨1, ![32]⟩ .f32) (hb : ∀ q : Fin 32, x2 (ix2 0 q) = b (ix1 q)) :
    k2_pay1 (F := Ideal) x0 x1 x2 = affine x0 x1 b := by
  unfold k2_pay1
  exact kernel_affine _ dot_plain x0 x1 x2 b hb _ _ _ _

/-- The index maps over the grid: the feature window and the result window sit at block row t, column block 0; the
    weight and bias windows at block (0, 0). -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 ∧ win2_3.index t (1 : Fin 2) = 0 :=
  (by decide +kernel : ∀ t : Fin grid2.N, _)

/-- Every block row of the result is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- WHAT POINT t WRITES BACK is block t of the dense layer of the arrays the region finds. -/
theorem flushed_eq (c : Dev nD) (b : FVec Ideal ⟨1, ![32]⟩ .f32)
    (hb : ∀ q : Fin 32, (V c main_v24 : S1x32.Idx → Elt Ideal .f32) (ix2 0 q) = b (ix1 q)) (t : Fin cfg2.N) :
    (dat2 V c).flushed 3 t = ((cfg2.win 3).blk t).view.read (Elt Ideal)
      (affine (V c main_v23 : S100000x64.Idx → Elt Ideal .f32) (V c main_arg7 : S64x32.Idx → Elt Ideal .f32) b) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x32) hz, View.ld_unit_zero (S := S1x32) hz]
  obtain ⟨e0, e1, e2, e3, e4, e5, e6, e7⟩ := idx_facts t
  have hb' : ∀ q : Fin 32, (iblk2 V c 2 t : Vec Ideal S1x32 .f32) (ix2 0 q) = b (ix1 q) := fun q => by
    unfold iblk2
    rw [View.read_apply]
    refine (congrArg (V c main_v24 : S1x32.Idx → Elt Ideal .f32) ?_).trans (hb q)
    funext a; apply Fin.ext
    match a with
    | ⟨0, _⟩ => show win2_2.index t (0 : Fin 2) * 1 + 1 * 0 = 0; omega
    | ⟨1, _⟩ => show win2_2.index t (1 : Fin 2) * 32 + 1 * q.val = q.val; omega
  rw [pay_eq (iblk2 V c 0 t) (iblk2 V c 1 t) (iblk2 V c 2 t) b hb']
  funext j
  show affine (iblk2 V c 0 t : Vec Ideal S10000x64 .f32) (iblk2 V c 1 t : Vec Ideal S64x32 .f32) b j
    = affine (V c main_v23 : S100000x64.Idx → Elt Ideal .f32) (V c main_arg7 : S64x32.Idx → Elt Ideal .f32) b (((cfg2.win 3).blk t).view.emb j)
  unfold affine
  dsimp only
  have hx : ∀ k : Fin 64, (iblk2 V c 0 t : Vec Ideal S10000x64 .f32) (ix2 (j 0) k)
      = (V c main_v23 : S100000x64.Idx → Elt Ideal .f32) (ix2 (((cfg2.win 3).blk t).view.emb j 0) k) := fun k => by
    unfold iblk2
    rw [View.read_apply]
    refine congrArg (V c main_v23 : S100000x64.Idx → Elt Ideal .f32) ?_
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  have hw : ∀ k : Fin 64, (iblk2 V c 1 t : Vec Ideal S64x32 .f32) (ix2 k (j 1))
      = (V c main_arg7 : S64x32.Idx → Elt Ideal .f32) (ix2 k (((cfg2.win 3).blk t).view.emb j 1)) := fun k => by
    unfold iblk2
    rw [View.read_apply]
    refine congrArg (V c main_arg7 : S64x32.Idx → Elt Ideal .f32) ?_
    funext a; apply Fin.ext
    match a with
    | ⟨0, _⟩ => show win2_1.index t (0 : Fin 2) * 64 + 1 * k.val = k.val; omega
    | ⟨1, _⟩ => show win2_1.index t (1 : Fin 2) * 32 + 1 * (j 1).val = win2_3.index t (1 : Fin 2) * 32 + 1 * (j 1).val; omega
  have hj1 : (ix1 (j 1) : (⟨1, ![32]⟩ : Shape).Idx) = ix1 (((cfg2.win 3).blk t).view.emb j 1) :=
    funext fun a => Fin.ext (by
      match a with
      | ⟨0, _⟩ => show (j 1).val = win2_3.index t (1 : Fin 2) * 32 + 1 * (j 1).val; omega)
  refine congr (congrArg HAdd.hAdd (Finset.sum_congr rfl fun k _ => ?_)) ?_
  · rw [hx k, hw k]
  · exact congrArg b hj1

/-- An index of the result is in point t's block iff each coordinate is in the block's range on its axis. -/
theorem mem_blk (t : Fin cfg2.N) (i : S100000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v25).slice (win2_3.rect t)).set ↔ _
  rw [View.set_slice_whole, Rect.mem_set_unit]
  exact Iff.rfl

/-- The ten row blocks tile the result: row r is in the block of point r / 10000. -/
theorem cover (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 32 ≤ (i 1).val ∧ (i 1).val < win2_3.index t (1 : Fin 2) * 32 + 32; omega

/-- THE RESULT ARRAY after the region: the dense layer of the feature, weight and bias arrays the region finds. -/
theorem final (c : Dev nD) (b : FVec Ideal ⟨1, ![32]⟩ .f32)
    (hb : ∀ q : Fin 32, (V c main_v24 : S1x32.Idx → Elt Ideal .f32) (ix2 0 q) = b (ix1 q)) :
    (dat2 V c).arrAt 3 cfg2.N
      = affine (V c main_v23 : S100000x64.Idx → Elt Ideal .f32) (V c main_arg7 : S64x32.Idx → Elt Ideal .f32) b :=
  (dat2 V c).arrAt_eq_of_cover 3 _ (fun t _ => flushed_eq V c b hb t) cover

end Cert.KernelIdeal.Layer2

end
-- ==== Proof.KernelNet.lean ====
/-
  The kernel's program, read from the launch memory to the result buffer.

  @main is three stretches of host operations, each followed by a region. The frame's fold names the buffer contents at
  every boundary (W0 the launch memory, W1 after the first stretch, W2 after the first region, … W6 at the return). Read
  backwards from the result: the last region leaves the output layer of what it found; its feature operand is what the
  second region left, the rectified second layer of the aggregation of what the first region left, the rectified first
  layer of the aggregation of the input features; every weight and bias operand is an argument no operation writes (a bias
  through a reshape to a [1, C] row). Composed, the result buffer holds the network `net` of the arguments.
-/
import proofs.«163123_j35021163331781_1_alg».proof.Proof.Layer0
import proofs.«163123_j35021163331781_1_alg».proof.Proof.Layer1
import proofs.«163123_j35021163331781_1_alg».proof.Proof.Layer2
import proofs.«163123_j35021163331781_1_alg».proof.Proof.RunResult
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Net

open Cert.KernelIdeal Cert.KernelIdeal.Gen Cert.Gcn

variable (m : (ℓ : Loc nD τ sig) → Buf (Elt Ideal) ℓ) (ρ : Dev nD → PrngReg)

/-- The aggregation along the edges, with this program's dimension-number records. -/
abbrev aggK : FVec Ideal SNode .f32 → IVec SEdge 32 → IVec SEdge 32 → FVec Ideal SNode .f32 :=
  agg gather_S100000x64_S1600000x1_S1600000x64_1_0_n_n_0_1_164 scatter_S100000x64_S1600000x1_S1600000x64_1_0_0_1
    bcast_S_S1600000 bcast_S1600000_S1600000x1_0 bcast_S_S100000x64

/-! ## After the first stretch of host operations (the first region's entry) -/

theorem W1_arg1 (c : Dev nD) : W1 m ρ c (Proc.devRef .tc main_arg1) = (m ((c : Thread nD τ).loc main_arg1)) := by
  show StableHlo.after hostOps0 (W0 m ρ c) (Proc.devRef .tc main_arg1) = _
  after_results
theorem W1_arg2 (c : Dev nD) : W1 m ρ c (Proc.devRef .tc main_arg2) = (m ((c : Thread nD τ).loc main_arg2)) := by
  show StableHlo.after hostOps0 (W0 m ρ c) (Proc.devRef .tc main_arg2) = _
  after_results
theorem W1_arg3 (c : Dev nD) : W1 m ρ c (Proc.devRef .tc main_arg3) = (m ((c : Thread nD τ).loc main_arg3)) := by
  show StableHlo.after hostOps0 (W0 m ρ c) (Proc.devRef .tc main_arg3) = _
  after_results
theorem W1_arg5 (c : Dev nD) : W1 m ρ c (Proc.devRef .tc main_arg5) = (m ((c : Thread nD τ).loc main_arg5)) := by
  show StableHlo.after hostOps0 (W0 m ρ c) (Proc.devRef .tc main_arg5) = _
  after_results
theorem W1_arg6 (c : Dev nD) : W1 m ρ c (Proc.devRef .tc main_arg6) = (m ((c : Thread nD τ).loc main_arg6)) := by
  show StableHlo.after hostOps0 (W0 m ρ c) (Proc.devRef .tc main_arg6) = _
  after_results
theorem W1_arg7 (c : Dev nD) : W1 m ρ c (Proc.devRef .tc main_arg7) = (m ((c : Thread nD τ).loc main_arg7)) := by
  show StableHlo.after hostOps0 (W0 m ρ c) (Proc.devRef .tc main_arg7) = _
  after_results
theorem W1_arg8 (c : Dev nD) : W1 m ρ c (Proc.devRef .tc main_arg8) = (m ((c : Thread nD τ).loc main_arg8)) := by
  show StableHlo.after hostOps0 (W0 m ρ c) (Proc.devRef .tc main_arg8) = _
  after_results

/-- The first region's feature operand: the aggregation of the input features. -/
theorem W1_v9 (c : Dev nD) : (W1 m ρ c (Proc.devRef .tc main_v9) : S100000x64.Idx → Elt Ideal .f32)
    = aggK (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

/-- The first region's bias operand is the first bias vector as a [1, 64] row. -/
theorem W1_v10 (c : Dev nD) (q : Fin 64) : (W1 m ρ c (Proc.devRef .tc main_v10) : S1x64.Idx → Elt Ideal .f32) (ix2 0 q)
    = ((m ((c : Thread nD τ).loc main_arg4)) : S64.Idx → Elt Ideal .f32) (ix1 q) := by
  have h : W1 m ρ c (Proc.devRef .tc main_v10) = fun i => shapeCast S1x64 ((m ((c : Thread nD τ).loc main_arg4)) : S64.Idx → Elt Ideal .f32) shapeCasts_S64_S1x64 i := by
    show StableHlo.after hostOps0 (W0 m ρ c) (Proc.devRef .tc main_v10) = _
    after_results
    rfl
  rw [h]
  exact reshape_row _ _ q

/-! ## After the first region -/

theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)

/-- What the first region leaves: the rectified first layer of the aggregated input features. -/
theorem W2_v11 (c : Dev nD) : (W2 m ρ c (Proc.devRef .tc main_v11) : S100000x64.Idx → Elt Ideal .f32)
    = relu (affine (aggK (m ((c : Thread nD τ).loc main_arg0)) (m ((c : Thread nD τ).loc main_arg1)) (m ((c : Thread nD τ).loc main_arg2))) ((m ((c : Thread nD τ).loc main_arg3)) : S64x64.Idx → Elt Ideal .f32) ((m ((c : Thread nD τ).loc main_arg4)) : S64.Idx → Elt Ideal .f32)) := by
  refine (W2_arr m ρ c 3).trans ((Layer0.final (V1 m ρ) c _ (fun q => W1_v10 m ρ c q)).trans ?_)
  show relu (affine (W1 m ρ c (Proc.devRef .tc main_v9) : S100000x64.Idx → Elt Ideal .f32) (W1 m ρ c (Proc.devRef .tc main_arg3) : S64x64.Idx → Elt Ideal .f32) _) = _
  rw [W1_v9, W1_arg3]

/-! ## After the second stretch (the second region's entry) -/

theorem W3_arg5 (c : Dev nD) : W3 m ρ c (Proc.devRef .tc main_arg5) = (m ((c : Thread nD τ).loc main_arg5)) := by
  show StableHlo.after hostOps1 (W2 m ρ c) (Proc.devRef .tc main_arg5) = _
  after_results
  exact W2_arg5 m ρ c
theorem W3_arg6 (c : Dev nD) : W3 m ρ c (Proc.devRef .tc main_arg6) = (m ((c : Thread nD τ).loc main_arg6)) := by
  show StableHlo.after hostOps1 (W2 m ρ c) (Proc.devRef .tc main_arg6) = _
  after_results
  exact W2_arg6 m ρ c
theorem W3_arg7 (c : Dev nD) : W3 m ρ c (Proc.devRef .tc main_arg7) = (m ((c : Thread nD τ).loc main_arg7)) := by
  show StableHlo.after hostOps1 (W2 m ρ c) (Proc.devRef .tc main_arg7) = _
  after_results
  exact W2_arg7 m ρ c
theorem W3_arg8 (c : Dev nD) : W3 m ρ c (Proc.devRef .tc main_arg8) = (m ((c : Thread nD τ).loc main_arg8)) := by
  show StableHlo.after hostOps1 (W2 m ρ c) (Proc.devRef .tc main_arg8) = _
  after_results
  exact W2_arg8 m ρ c

/-- The second region's feature operand: the aggregation of what the first region left. -/
theorem W3_v21 (c : Dev nD) : (W3 m ρ c (Proc.devRef .tc main_v21) : S100000x64.Idx → Elt Ideal .f32)
    = aggK (W2 m ρ c (Proc.devRef .tc main_v11)) (m ((c : Thread nD τ).loc main_arg1)) (m ((c : Thread nD τ).loc main_arg2)) := by
  show StableHlo.after hostOps1 (W2 m ρ c) (Proc.devRef .tc main_v21) = _
  after_results
  rw [W2_arg1, W2_arg2]
  rfl

/-- The second region's bias operand is the second bias vector as a [1, 64] row. -/
theorem W3_v22 (c : Dev nD) (q : Fin 64) : (W3 m ρ c (Proc.devRef .tc main_v22) : S1x64.Idx → Elt Ideal .f32) (ix2 0 q)
    = ((m ((c : Thread nD τ).loc main_arg6)) : S64.Idx → Elt Ideal .f32) (ix1 q) := by
  have h : W3 m ρ c (Proc.devRef .tc main_v22) = fun i => shapeCast S1x64 ((m ((c : Thread nD τ).loc main_arg6)) : S64.Idx → Elt Ideal .f32) shapeCasts_S64_S1x64 i := by
    show StableHlo.after hostOps1 (W2 m ρ c) (Proc.devRef .tc main_v22) = _
    after_results
    rw [W2_arg6]
    rfl
  rw [h]
  exact reshape_row _ _ q

/-! ## After the second region -/

theorem W4_arg7 (c : Dev nD) : W4 m ρ c (Proc.devRef .tc main_arg7) = (m ((c : Thread nD τ).loc main_arg7)) :=
  (W4_of_ne m ρ c main_arg7 (by decide)).trans (W3_arg7 m ρ c)
theorem W4_arg8 (c : Dev nD) : W4 m ρ c (Proc.devRef .tc main_arg8) = (m ((c : Thread nD τ).loc main_arg8)) :=
  (W4_of_ne m ρ c main_arg8 (by decide)).trans (W3_arg8 m ρ c)

/-- What the second region leaves: the rectified second layer of its aggregated feature operand. -/
theorem W4_v23 (c : Dev nD) : (W4 m ρ c (Proc.devRef .tc main_v23) : S100000x64.Idx → Elt Ideal .f32)
    = relu (affine (W3 m ρ c (Proc.devRef .tc main_v21) : S100000x64.Idx → Elt Ideal .f32) ((m ((c : Thread nD τ).loc main_arg5)) : S64x64.Idx → Elt Ideal .f32) ((m ((c : Thread nD τ).loc main_arg6)) : S64.Idx → Elt Ideal .f32)) := by
  refine (W4_arr m ρ c 3).trans ((Layer1.final (V3 m ρ) c _ (fun q => W3_v22 m ρ c q)).trans ?_)
  show relu (affine (W3 m ρ c (Proc.devRef .tc main_v21) : S100000x64.Idx → Elt Ideal .f32) (W3 m ρ c (Proc.devRef .tc main_arg5) : S64x64.Idx → Elt Ideal .f32) _) = _
  rw [W3_arg5]

/-! ## After the third stretch (the last region's entry) -/

theorem W5_arg7 (c : Dev nD) : W5 m ρ c (Proc.devRef .tc main_arg7) = (m ((c : Thread nD τ).loc main_arg7)) := by
  show StableHlo.after hostOps2 (W4 m ρ c) (Proc.devRef .tc main_arg7) = _
  after_results
  exact W4_arg7 m ρ c

/-- The last region's feature operand is what the second region left. -/
theorem W5_v23 (c : Dev nD) : W5 m ρ c (Proc.devRef .tc main_v23) = W4 m ρ c (Proc.devRef .tc main_v23) := by
  show StableHlo.after hostOps2 (W4 m ρ c) (Proc.devRef .tc main_v23) = _
  after_results

/-- The last region's bias operand is the output bias vector as a [1, 32] row. -/
theorem W5_v24 (c : Dev nD) (q : Fin 32) : (W5 m ρ c (Proc.devRef .tc main_v24) : S1x32.Idx → Elt Ideal .f32) (ix2 0 q)
    = ((m ((c : Thread nD τ).loc main_arg8)) : S32.Idx → Elt Ideal .f32) (ix1 q) := by
  have h : W5 m ρ c (Proc.devRef .tc main_v24) = fun i => shapeCast S1x32 ((m ((c : Thread nD τ).loc main_arg8)) : S32.Idx → Elt Ideal .f32) shapeCasts_S32_S1x32 i := by
    show StableHlo.after hostOps2 (W4 m ρ c) (Proc.devRef .tc main_v24) = _
    after_results
    rw [W4_arg8]
    rfl
  rw [h]
  exact reshape_row _ _ q

/-! ## At the return -/

/-- THE RESULT BUFFER at the last boundary holds the network of the arguments. -/
theorem result (c : Dev nD) : (W6 m ρ c (Proc.devRef .tc main_v25) : S100000x32.Idx → Elt Ideal .f32)
    = net gather_S100000x64_S1600000x1_S1600000x64_1_0_n_n_0_1_164 scatter_S100000x64_S1600000x1_S1600000x64_1_0_0_1
        bcast_S_S1600000 bcast_S1600000_S1600000x1_0 bcast_S_S100000x64
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 3).trans ((Layer2.final (V5 m ρ) c _ (fun q => W5_v24 m ρ c q)).trans ?_)
  show affine (W5 m ρ c (Proc.devRef .tc main_v23) : S100000x64.Idx → Elt Ideal .f32) (W5 m ρ c (Proc.devRef .tc main_arg7) : S64x32.Idx → Elt Ideal .f32) _ = _
  rw [W5_v23, W5_arg7, W4_v23, W3_v21, W2_v11]
  rfl

/-- The run, read: every weakly fair execution ends with the result buffer at the network of the arguments and the
    arguments as launched. -/
theorem run : θ_run defs (onTc (τ := τ) (main (F := Ideal))) ⟨m, fun _ => 0, ρ⟩ (fun r => ∀ c : Dev nD,
      r.2.mem ((c.tc : Thread nD τ).loc main_v25)
        = net gather_S100000x64_S1600000x1_S1600000x64_1_0_n_n_0_1_164 scatter_S100000x64_S1600000x1_S1600000x64_1_0_0_1
            bcast_S_S1600000 bcast_S1600000_S1600000x1_0 bcast_S_S100000x64
            (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (Cert.KernelIdeal.GenP.run_result m ρ)

end Cert.KernelIdeal.Net

end
-- ==== Proof.RefNet.lean ====
/-
  The reference's result, as its run states it, is the network `net` of its arguments: each
  product-plus-broadcast-bias is a dense layer, each maximum with the broadcast zero a rectifier, and what lies between
  the layers is the aggregation along the edges, untouched.
-/
import proofs.«163123_j35021163331781_1_alg».proof.Proof.Gen.ReferenceIdeal.Run
import proofs.«163123_j35021163331781_1_alg».proof.Proof.Spec

noncomputable section

open Idealize.ShloMosaic Idealize.ShloMosaic.TcCoe Idealize.SL.Sem

namespace Cert.ReferenceIdeal.NetValue

open Cert.ReferenceIdeal Cert.ReferenceIdeal.Gen Cert.Gcn

/-- The two hidden layers' product contracts the feature columns with the weight rows. -/
theorem dot64_plain : PlainDot.IsPlain dot_S100000x64_S64x64_S100000x64_1_0_0_1_n_n := ⟨rfl, rfl, rfl, rfl, rfl, rfl⟩
/-- So does the output layer's. -/
theorem dot32_plain : PlainDot.IsPlain dot_S100000x64_S64x32_S100000x32_1_0_0_1_n_n := ⟨rfl, rfl, rfl, rfl, rfl, rfl⟩

/-- The composed term of the reference's operations is the network. -/
theorem result_eq (x : FVec Ideal S100000x64 .f32) (src dst : IVec S1600000 32)
    (W1 : FVec Ideal S64x64 .f32) (b1 : FVec Ideal S64 .f32) (W2 : FVec Ideal S64x64 .f32) (b2 : FVec Ideal S64 .f32)
    (Wfc : FVec Ideal S64x32 .f32) (bfc : FVec Ideal S32 .f32) :
    addf (Host.dotGeneral dot_S100000x64_S64x32_S100000x32_1_0_0_1_n_n none (maximumf (addf (Host.dotGeneral dot_S100000x64_S64x64_S100000x64_1_0_0_1_n_n none (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 (maximumf (addf (Host.dotGeneral dot_S100000x64_S64x64_S100000x64_1_0_0_1_n_n none (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) W1) (broadcastInDim S100000x64 ![0, 1] bcast_S1x64_S100000x64_0_1 (broadcastInDim S1x64 ![1] bcast_S64_S1x64_1 b1))) (broadcastInDim S100000x64 ![] bcast_S_S100000x64 (constant S_ .f32 0x00000000#32))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) W2) (broadcastInDim S100000x64 ![0, 1] bcast_S1x64_S100000x64_0_1 (broadcastInDim S1x64 ![1] bcast_S64_S1x64_1 b2))) (broadcastInDim S100000x64 ![] bcast_S_S100000x64 (constant S_ .f32 0x00000000#32))) Wfc) (broadcastInDim S100000x32 ![0, 1] bcast_S1x32_S100000x32_0_1 (broadcastInDim S1x32 ![1] bcast_S32_S1x32_1 bfc))
      = net gather_S100000x64_S1600000x1_S1600000x64_1_0_n_n_0_1_164 scatter_S100000x64_S1600000x1_S1600000x64_1_0_0_1
          bcast_S_S1600000 bcast_S1600000_S1600000x1_0 bcast_S_S100000x64 x src dst W1 b1 W2 b2 Wfc bfc := by
  unfold net agg
  rw [host_affine _ dot32_plain, host_relu, host_relu, host_affine _ dot64_plain, host_affine _ dot64_plain]

end Cert.ReferenceIdeal.NetValue

end
-- ==== Proof.lean ====
/-
  The certificate of a two-hop graph convolution network on 100000 nodes and 1600000 edges.

  Both programs compute, for node features x, edge lists src and dst, and the weights of three dense layers,
      h1 = relu (A(x) · W1 + b1),   h2 = relu (A(h1) · W2 + b2),   logits = h2 · Wfc + bfc,
  where A sums, into every destination node, the feature rows of its edges' source nodes. The aggregation A is the same
  chain of host operations in both programs (wrap negative indices, gather, scatter-add into zeros) and is never opened:
  Proof/Spec.lean names it once. The reference computes each dense layer on the host with a general product; the kernel
  computes it in a pallas_call that walks ten blocks of 10000 rows, rounding its operands to bf16 first, which on the
  extended reals is the identity. A row of a dense layer depends only on the same row of its input, so the blocks the
  kernel stores are the blocks of the whole matrix's layer (Proof/Layer0.lean, Layer1.lean, Layer2.lean), the fold of the
  kernel program's boundaries composes them into the network (Proof/KernelNet.lean), and the reference's composed term is
  the same network (Proof/RefNet.lean). No algebraic law beyond reading both products as the same sum is used, so the
  finiteness of the inputs is not needed.

  The three frames: the two kernel programs' are the generated frame certificates; the reference has no kernel and its
  frame is its run with the result dropped. The idealization rewrote nothing, so `preserves` is trivial.
-/
import proofs.«163123_j35021163331781_1_alg».proof.Defs
import proofs.«163123_j35021163331781_1_alg».proof.Proof.Gen.Kernel
import proofs.«163123_j35021163331781_1_alg».proof.Proof.Gen.Kernel.Frame
import proofs.«163123_j35021163331781_1_alg».proof.Proof.Gen.KernelIdeal
import proofs.«163123_j35021163331781_1_alg».proof.Proof.Gen.KernelIdeal.Frame
import proofs.«163123_j35021163331781_1_alg».proof.Proof.Gen.ReferenceIdeal
import proofs.«163123_j35021163331781_1_alg».proof.Proof.Gen.ReferenceIdeal.Run
import proofs.«163123_j35021163331781_1_alg».proof.Proof.Gen.Pre_finite_inputs
import proofs.«163123_j35021163331781_1_alg».proof.Proof.KernelNet
import proofs.«163123_j35021163331781_1_alg».proof.Proof.RefNet

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the arguments in their result
    buffers: the kernel program by the fold of its boundaries, the reference by its composed term; the two spell the
    aggregation's dimension numbers as two records with the same fields. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8]
  exact (Cert.ReferenceIdeal.NetValue.result_eq _ _ _ _ _ _ _ _ _).trans rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
